-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S4096x4096 .f32) (main_arg2 : FVec F S4096 .f32) (main_arg3 : FVec F S4096 .f32) (main_arg4 : FVec F S4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S512x4096 : Shape := ⟨2, ![512, 4096]⟩
abbrev S1x512 : Shape := ⟨2, ![1, 512]⟩
abbrev S256x512 : Shape := ⟨2, ![256, 512]⟩
abbrev S4096x512 : Shape := ⟨2, ![4096, 512]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .f32⟩
  | .local _ .vmem, ⟨13, _⟩ => ⟨S256x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  transposes_S512x4096_p1_0_S4096x512 : S512x4096.Transposes [1, 0] S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  slices_S256x512_o0_0_S256x128 : S256x512.Slices ![0, 0] S256x128
  reduces_S256x128_S256 : S256x128.Reduces [1] S256
  shapeCasts_S256_S256x1 : S256.ShapeCasts S256x1
  broadcasts_S256x1_S256x128 : S256x1.Broadcasts S256x128
  slices_S256x512_o0_128_S256x128 : S256x512.Slices ![0, 128] S256x128
  slices_S256x512_o0_256_S256x128 : S256x512.Slices ![0, 256] S256x128
  slices_S256x512_o0_384_S256x128 : S256x512.Slices ![0, 384] S256x128
  concatenates_S256x128_S256x128_S256x128_S256x128_S256x512_d1 : Shape.Concatenates [S256x128, S256x128, S256x128, S256x128] S256x512 1
  inb_S256x512_S256x512_0_0 : ∀ a, (![0, 0] : Fin 2 → Nat) a + S256x512.size a ≤ S256x512.size a
  h_S256x512 : 0 < S256x512.numel
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S8192x4096.size a
  hwx0_6 : ∀ i : grid0.Coords, EltTy.bits .f32 = 32 ∨ (Rect.block (s := S8192x4096) S256x512.size (cc0_transform_6 i) (hinb0_6 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x32x128, .f32⟩
  | .hbm, ⟨11, _⟩ => ⟨S_, .f32⟩
  | .hbm, ⟨12, _⟩ => ⟨S8192x32, .f32⟩
  | .hbm, ⟨13, _⟩ => ⟨S8192x32x1, .f32⟩
  | .hbm, ⟨14, _⟩ => ⟨S_, .f32⟩
  | .hbm, ⟨15, _⟩ => ⟨S8192x32x1, .f32⟩
  | .hbm, ⟨16, _⟩ => ⟨S8192x32x1, .f32⟩
  | .hbm, ⟨17, _⟩ => ⟨S8192x32x128, .f32⟩
  | .hbm, ⟨18, _⟩ => ⟨S_, .f32⟩
  | .hbm, ⟨19, _⟩ => ⟨S8192x32, .f32⟩
  | .hbm, ⟨20, _⟩ => ⟨S8192x32x1, .f32⟩
  | .hbm, ⟨21, _⟩ => ⟨S_, .f32⟩
  | .hbm, ⟨22, _⟩ => ⟨S8192x32x1, .f32⟩
  | .hbm, ⟨23, _⟩ => ⟨S8192x32x1, .f32⟩
  | .hbm, ⟨24, _⟩ => ⟨S8192x32x1, .f32⟩
  | .hbm, ⟨25, _⟩ => ⟨S8192x32x1, .f32⟩
  | .hbm, ⟨26, _⟩ => ⟨S8192x32x128, .f32⟩
  | .hbm, ⟨27, _⟩ => ⟨S8192x32x128, .f32⟩
  | .hbm, ⟨28, _⟩ => ⟨S_, .f32⟩
  | .hbm, ⟨29, _⟩ => ⟨S8192x32x1, .f32⟩
  | .hbm, ⟨30, _⟩ => ⟨S8192x32x1, .f32⟩
  | .hbm, ⟨31, _⟩ => ⟨S8192x32x1, .f32⟩
  | .hbm, ⟨32, _⟩ => ⟨S8192x32x128, .f32⟩
  | .hbm, ⟨33, _⟩ => ⟨S8192x32x128, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S1x4096, .f32⟩
  | .hbm, ⟨51, _⟩ => ⟨S8192x4096, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S_, .f32⟩
  | .hbm, ⟨56, _⟩ => ⟨S8192x4096, .f32⟩
  | .hbm, ⟨57, _⟩ => ⟨S8192x4096, .f32⟩
  | .hbm, ⟨58, _⟩ => ⟨S_, .f32⟩
  | .hbm, ⟨59, _⟩ => ⟨S8192x4096, .f32⟩
  | .hbm, ⟨60, _⟩ => ⟨S8192x4096, .f32⟩
  | .hbm, ⟨61, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  shapeCasts_S8192x32x128_S8192x4096 : S8192x32x128.ShapeCasts S8192x4096
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute, written once over the whole argument arrays.

  A row of the activation matrix is cut into 32 groups of 128 consecutive channels.  Channel `c = 128 g + j` of
  row `r` first receives the affine value `lin r c = (∑ k, x (r, k) * w (c, k)) + b c`; the group is then
  normalised: with `μ = (∑ j, s j) / 128` and `ν = (∑ j, s j * s j) / 128` for the group's slab `s`, entry `j`
  becomes `(s j - μ) * rsqrt (ν - μ * μ + ε)`; the normalised value is scaled and shifted per channel, passed through
  `y ↦ y * logistic y`, scaled per channel again and passed through the same map once more.  Everything is an
  operation of the extended reals as the ideal reading interprets it; the three float literals (128, ε, and the zero a sum
  starts from) are kept as the words the programs print, so that no literal is ever evaluated.
-/
import Idealize.ShloMosaic.PureOps.Ideal
import Idealize.ShloMosaic.Lib.ValueIdx

noncomputable section

namespace Cert.MlpSpec

open Idealize.ShloMosaic Idealize.ShloMosaic.ValueIdx

/-- The group size as the float both programs divide by. -/
abbrev c128 : EReal := Ideal.ofBits .f32 0x43000000#32
/-- The variance's additive constant, the same word in both programs. -/
abbrev ceps : EReal := Ideal.ofBits .f32 0x3727C5AC#32

/-- The mean of a slab of 128 entries. -/
def mean (s : Fin 128 → EReal) : EReal := Ideal.div (∑ j, s j) c128

/-- The mean of the squares of a slab of 128 entries. -/
def meanSq (s : Fin 128 → EReal) : EReal := Ideal.div (∑ j, s j * s j) c128

/-- The reciprocal standard deviation of a slab: `rsqrt (E[s²] - E[s]² + ε)`. -/
def rstd (s : Fin 128 → EReal) : EReal := Ideal.rsqrt (meanSq s - mean s * mean s + ceps)

/-- Entry `j` of a slab, normalised over the slab. -/
def normed (s : Fin 128 → EReal) (j : Fin 128) : EReal := (s j - mean s) * rstd s

/-- `y ↦ y * logistic y`. -/
def swish (y : EReal) : EReal := y * Ideal.logistic y

/-- What follows the normalisation, per entry: scale, shift, swish, scale, swish. -/
def act (n gw gb mw : EReal) : EReal := swish (swish (n * gw + gb) * mw)

/-- Channel `j` of group `g`. -/
def col (g : Fin 32) (j : Fin 128) : Fin 4096 := ⟨g.val * 128 + j.val, by omega⟩

theorem col_val (g : Fin 32) (j : Fin 128) : (col g j).val = g.val * 128 + j.val := rfl

/-- The affine layer at row `r`, channel `c`. -/
def lin (x : FVec Ideal ⟨2, ![8192, 4096]⟩ .f32) (w : FVec Ideal ⟨2, ![4096, 4096]⟩ .f32) (b : FVec Ideal ⟨1, ![4096]⟩ .f32)
    (r : Fin 8192) (c : Fin 4096) : EReal :=
  (∑ k : Fin 4096, x (ix2 r k) * w (ix2 c k)) + b (ix1 c)

/-- The result at row `r`, group `g`, entry `j` of the group. -/
def Gat (x : FVec Ideal ⟨2, ![8192, 4096]⟩ .f32) (w : FVec Ideal ⟨2, ![4096, 4096]⟩ .f32) (b gw gb mw : FVec Ideal ⟨1, ![4096]⟩ .f32)
    (r : Fin 8192) (g : Fin 32) (j : Fin 128) : EReal :=
  act (normed (fun j' => lin x w b r (col g j')) j) (gw (ix1 (col g j))) (gb (ix1 (col g j))) (mw (ix1 (col g j)))

/-- The group of a channel. -/
def grp (c : Fin 4096) : Fin 32 := ⟨c.val / 128, by have := c.isLt; omega⟩
/-- The place of a channel in its group. -/
def sub (c : Fin 4096) : Fin 128 := ⟨c.val % 128, by omega⟩

theorem col_grp_sub (c : Fin 4096) : col (grp c) (sub c) = c :=
  Fin.ext (by show c.val / 128 * 128 + c.val % 128 = c.val; omega)

/-- The whole result array as one function of the six argument arrays. -/
def G (x : FVec Ideal ⟨2, ![8192, 4096]⟩ .f32) (w : FVec Ideal ⟨2, ![4096, 4096]⟩ .f32) (b gw gb mw : FVec Ideal ⟨1, ![4096]⟩ .f32) :
    FVec Ideal ⟨2, ![8192, 4096]⟩ .f32 :=
  fun i => Gat x w b gw gb mw (i 0) (grp (i 1)) (sub (i 1))

theorem G_ix2 (x : FVec Ideal ⟨2, ![8192, 4096]⟩ .f32) (w : FVec Ideal ⟨2, ![4096, 4096]⟩ .f32) (b gw gb mw : FVec Ideal ⟨1, ![4096]⟩ .f32)
    (r : Fin 8192) (c : Fin 4096) :
    G x w b gw gb mw (ix2 r c) = Gat x w b gw gb mw r (grp c) (sub c) := rfl

end Cert.MlpSpec

end
-- ==== Proof.LibRank3Layout.lean ====
/-
  Layout operations and one-axis reductions of small-rank arrays, read at an index built from its coordinates.

  Inserting the dropped coordinate into a result index of a one-axis reduction gives the plain coordinate tuple
  (`lift_last3`, `lift_mid3`, `lift_last2`); a trailing unit axis added by a reshape moves nothing
  (`shapeCast_ab_ab1_apply`, `shapeCast_a_a1_apply`); and spreading a trailing unit axis repeats the one entry
  along it (`broadcastTo_ab1_abc_apply`, `broadcastTo_a1_ab_apply`). With them a sum (from the zero pattern) or a maximum
  (from the pattern of minus infinity) along an axis of a rank-2 or rank-3 vector reads as a sum or a fold of max over
  that axis's coordinates at any extents; the evidence that the accumulator is the neutral word is taken as an equation
  between the two literals, which is how a printed program carries it. Library
  imports only.
-/
import Idealize.ShloMosaic.PureOps.Ideal.Laws
import Idealize.ShloMosaic.Lib.ValueIdx
import Idealize.ShloMosaic.Lib.Pipeline.Value

noncomputable section

namespace Cert.LibRank3Layout

open Idealize.ShloMosaic Idealize.ShloMosaic.ValueIdx

variable {α : Type}

/-- In an [a, b, c] shape reduced along its last axis, the index over (p, r) with `k` inserted is (p, r, k). -/
theorem lift_last3 {a b c : ℕ} (h : Shape.Reduces ⟨3, ![a, b, c]⟩ [2] ⟨2, ![a, b]⟩) (p : Fin a) (r : Fin b) (k : Fin c) :
    h.lift (ix2 p r) k = ix3 p r k :=
  funext fun e => Fin.ext (by match e with | ⟨0, _⟩ => rfl | ⟨1, _⟩ => rfl | ⟨2, _⟩ => rfl)

/-- In an [a, b, c] shape reduced along its middle axis, the index over (p, q) with `r` inserted is (p, r, q). -/
theorem lift_mid3 {a b c : ℕ} (h : Shape.Reduces ⟨3, ![a, b, c]⟩ [1] ⟨2, ![a, c]⟩) (p : Fin a) (q : Fin c) (r : Fin b) :
    h.lift (ix2 p q) r = ix3 p r q :=
  funext fun e => Fin.ext (by match e with | ⟨0, _⟩ => rfl | ⟨1, _⟩ => rfl | ⟨2, _⟩ => rfl)

/-- In an [a, b] shape reduced along its last axis, the index over p with `q` inserted is (p, q). -/
theorem lift_last2 {a b : ℕ} (h : Shape.Reduces ⟨2, ![a, b]⟩ [1] ⟨1, ![a]⟩) (p : Fin a) (q : Fin b) :
    h.lift (ix1 p) q = ix2 p q :=
  funext fun e => Fin.ext (by match e with | ⟨0, _⟩ => rfl | ⟨1, _⟩ => rfl)

/-- The sum along the last axis of an [a, b, c] vector, at (p, r). -/
theorem multiReduction_add_last3 {a b c : ℕ} (src : FVec Ideal ⟨3, ![a, b, c]⟩ .f32)
    (h : Shape.Reduces ⟨3, ![a, b, c]⟩ [2] ⟨2, ![a, b]⟩) (hφ : FKind.Formats .f32) (hacc : (0x00000000#32 : BitVec 32) = 0x00000000#32)
    (p : Fin a) (r : Fin b) :
    multiReduction .add [2] ⟨2, ![a, b]⟩ src 0x00000000#32 h hφ hacc (ix2 p r) = ∑ k : Fin c, src (ix3 p r k) := by
  refine (Ideal.multiReduction_add_single src 0x00000000#32 h hφ hacc (ix2 p r)).trans ?_
  show ∑ k : Fin c, src (h.lift (ix2 p r) k) = _
  exact Finset.sum_congr rfl fun k _ => congrArg src (lift_last3 h p r k)

/-- The maximum along the middle axis of an [a, b, c] vector, at (p, q): the fold of max from the accumulator's value. -/
theorem multiReduction_max_mid3 {a b c : ℕ} (src : FVec Ideal ⟨3, ![a, b, c]⟩ .f32)
    (h : Shape.Reduces ⟨3, ![a, b, c]⟩ [1] ⟨2, ![a, c]⟩) (hφ : FKind.Formats .f32) (hacc : (0xFF800000#32 : BitVec 32) = 0xFF800000#32)
    (p : Fin a) (q : Fin c) :
    multiReduction .maximumf [1] ⟨2, ![a, c]⟩ src 0xFF800000#32 h hφ hacc (ix2 p q)
      = (Finset.univ : Finset (Fin b)).fold max (Ideal.ofBits .f32 0xFF800000#32) (fun r => src (ix3 p r q)) := by
  refine (Ideal.multiReduction_maximumf_single src 0xFF800000#32 h hφ hacc (ix2 p q)).trans ?_
  show (Finset.univ : Finset (Fin b)).fold max (Ideal.ofBits .f32 0xFF800000#32) (fun r => src (h.lift (ix2 p q) r)) = _
  exact congrArg (fun f => (Finset.univ : Finset (Fin b)).fold max (Ideal.ofBits .f32 0xFF800000#32) f)
    (funext fun r => congrArg src (lift_mid3 h p q r))

/-- The sum along the last axis of an [a, b] vector, at p. -/
theorem multiReduction_add_last2 {a b : ℕ} (src : FVec Ideal ⟨2, ![a, b]⟩ .f32)
    (h : Shape.Reduces ⟨2, ![a, b]⟩ [1] ⟨1, ![a]⟩) (hφ : FKind.Formats .f32) (hacc : (0x00000000#32 : BitVec 32) = 0x00000000#32) (p : Fin a) :
    multiReduction .add [1] ⟨1, ![a]⟩ src 0x00000000#32 h hφ hacc (ix1 p) = ∑ q : Fin b, src (ix2 p q) := by
  refine (Ideal.multiReduction_add_single src 0x00000000#32 h hφ hacc (ix1 p)).trans ?_
  show ∑ q : Fin b, src (h.lift (ix1 p) q) = _
  exact Finset.sum_congr rfl fun q _ => congrArg src (lift_last2 h p q)

/-- An [a, b] array cast to [a, b, 1] reads, at (p, r, u), the operand at (p, r). -/
theorem shapeCast_ab_ab1_apply {a b : ℕ} (x : (⟨2, ![a, b]⟩ : Shape).Idx → α)
    (h : (⟨2, ![a, b]⟩ : Shape).ShapeCasts ⟨3, ![a, b, 1]⟩) (p : Fin a) (r : Fin b) (u : Fin 1) :
    shapeCast ⟨3, ![a, b, 1]⟩ x h (ix3 p r u) = x (ix2 p r) :=
  shapeCast_apply x h _ _ (by
    have hu : u.val = 0 := by omega
    rw [Shape.rowMajor_val_two, Shape.rowMajor_val_three]
    show p.val * b + r.val = (p.val * b + r.val) * 1 + u.val
    rw [hu, Nat.mul_one, Nat.add_zero])

/-- An [a] array cast to [a, 1] reads, at (p, u), the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, b, 1] array broadcast to [a, b, c] reads, at (p, r, k), the operand at (p, r, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (r : Fin b) (k : Fin c) :
    broadcastTo ⟨3, ![a, b, c]⟩ v h (ix3 p r k) = v (ix3 p r (0 : Fin 1)) := by
  refine broadcastTo_apply v h (ix3 p r k) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

/-- An [a, 1] array broadcast to [a, b] reads, at (p, l), the operand at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

end Cert.LibRank3Layout

end
-- ==== Proof.LibMatmulPlain.lean ====
/-
  A plain matrix product read at an index.

  For `l` of `M` rows and `K` columns and `r` of `K` rows and `N` columns, the product that contracts the columns of
  `l` with the rows of `r` into a zero accumulator has, at `(p, n)`, the inner product of row `p` of `l` with column
  `n` of `r`: `∑ k, l (p, k) * r (k, n)`. On the extended reals the accumulator's zero adds nothing, and the
  contraction index, which the dimension record keeps as a one-axis shape, is re-indexed by its one coordinate.
  Stated for the dimension record `DotDims.plain M K N`; a printed record with the same six lists is that record (its
  last field is a proof), so the lemma applies to it after a `show`.
-/
import Idealize.ShloMosaic.Lib.ValueIdx
import Idealize.ShloMosaic.PureOps.Ideal.Laws

noncomputable section

namespace Cert.LibMatmulPlain

open Idealize.ShloMosaic Idealize.ShloMosaic.ValueIdx

variable {M K N : ℕ}

/-- The left operand's index keeps the output's row. -/
theorem lhs_axis0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column is the contraction coordinate. -/
theorem lhs_axis1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_axis0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_axis1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The two operand indices over the output index `(p, n)` and the contraction coordinate `k`. -/
theorem lhsIdx_eq (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

theorem rhsIdx_eq (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ => exact (rhs_axis0 _ _).trans (contrEquiv1_symm_val (DotDims.plain M K N) K rfl rfl k)
    | ⟨1, _⟩ => exact rhs_axis1 _ _)

/-- `l · r` into the zero accumulator, at `(p, n)`: the inner product of row `p` of `l` and column `n` of `r`. -/
theorem matmul_zero_apply {φ₁ φ₂ : FTy} (l : FVec Ideal ⟨2, ![M, K]⟩ φ₁) (r : FVec Ideal ⟨2, ![K, N]⟩ φ₂)
    (prec : Option ContractPrecision) (p : Fin M) (n : Fin N) :
    FloatOps.matmul (DotDims.plain M K N) prec l r (constant ⟨2, ![M, N]⟩ .f32 0x00000000#32) (ix2 p n)
      = ∑ k : Fin K, l (ix2 p k) * r (ix2 k n) := by
  rw [Ideal.matmul_constant_zero_apply, ← Equiv.sum_comp (contrEquiv1 (DotDims.plain M K N) K rfl rfl).symm]
  exact Finset.sum_congr rfl fun k _ => by rw [lhsIdx_eq, rhsIdx_eq]

/-- The host's product of the same two matrices, at `(p, n)`: the same inner product, whatever the schedule. -/
theorem dotGeneral_apply {φ₁ φ₂ : FTy} (l : FVec Ideal ⟨2, ![M, K]⟩ φ₁) (r : FVec Ideal ⟨2, ![K, N]⟩ φ₂)
    (prec : Option ContractPrecision) (sched : HostSchedule) (p : Fin M) (n : Fin N) :
    FloatOps.dotGeneral (DotDims.plain M K N) prec sched l r (ix2 p n) = ∑ k : Fin K, l (ix2 p k) * r (ix2 k n) := by
  rw [Ideal.dotGeneral_apply, ← Equiv.sum_comp (contrEquiv1 (DotDims.plain M K N) K rfl rfl).symm]
  exact Finset.sum_congr rfl fun k _ => by rw [lhsIdx_eq, rhsIdx_eq]

end Cert.LibMatmulPlain

end
-- ==== Proof.KernelTile.lean ====
/-
  One output tile of the kernel, read entry by entry.

  At a grid point the body sees a block `X` of 256 rows of the input, a block `W` of 512 rows of the weight, and one-row
  blocks `B`, `GW`, `GB`, `MW` of 512 channels each.  It forms the affine tile `H (p, q) = (∑ k, X (p, k) * W (q, k)) + B (0, q)`
  (the matrix product against the transposed weight block, the change of float format being the identity here), cuts `H` into
  four slabs of 128 consecutive columns, normalises every row of every slab over the slab's 128 entries, lays the four
  slabs side by side again, and applies scale, shift, swish, scale, swish per entry.  So entry `(p, 128 n + j)` of the
  tile is the specification's `act` of the normalised entry `j` of the row slab `j' ↦ H (p, 128 n + j')`.
-/
import proofs.«129358_j58128087384630_1_alg».proof.Proof.Gen.KernelIdeal.Skeleton
import proofs.«129358_j58128087384630_1_alg».proof.Proof.Spec
import proofs.«129358_j58128087384630_1_alg».proof.Proof.LibRank3Layout
import proofs.«129358_j58128087384630_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelTile

open Cert.KernelIdeal Cert.KernelIdeal.Gen Idealize.ShloMosaic Idealize.ShloMosaic.ValueIdx Cert.MlpSpec

/-! ## The affine tile -/

/-- Entry `(p, q)` of the affine tile. -/
def tlin (X : Vec Ideal S256x4096 .f32) (W : Vec Ideal S512x4096 .f32) (B : Vec Ideal S1x512 .f32) (p : Fin 256) (q : Fin 512) : EReal :=
  (∑ k : Fin 4096, X (ix2 p k) * W (ix2 q k)) + B (ix2 (0 : Fin 1) q)

/-- The product of the row block with the transposed weight block plus the broadcast bias row, entry by entry. -/
theorem pay2_apply (X : Vec Ideal S256x4096 .f32) (W : Vec Ideal S512x4096 .f32) (B : Vec Ideal S1x512 .f32) (p : Fin 256) (q : Fin 512) :
    k0_pay2 (F := Ideal) X W B (ix2 p q) = tlin X W B p q := by
  unfold k0_pay2 tlin
  refine (addf_apply _ _ _).trans ?_
  refine congrArg₂ (· + ·) ?_ ?_
  · refine (Cert.LibMatmulPlain.matmul_zero_apply (M := 256) (K := 4096) (N := 512) _ _ none p q).trans ?_
    refine Finset.sum_congr rfl fun k _ => ?_
    refine congrArg₂ (· * ·) (truncf_apply _ _ _) ?_
    refine (transpose_ix2_apply _ _ k q).trans ?_
    exact truncf_apply _ _ _
  · refine (broadcastTo_1b_ab_apply _ _ p q).trans ?_
    exact congrFun (shapeCast_self _ _) _

/-! ## One slab normalised -/

/-- The per-row mean of a slab as the body computes it: the lane sum from the zero word, as a column, over 128. -/
def meanCol (s : FVec Ideal S256x128 .f32) : FVec Ideal S256x1 .f32 :=
  divf (shapeCast S256x1 (multiReduction .add [1] S256 s 0x00000000#32 reduces_S256x128_S256 (.inl rfl) rfl) shapeCasts_S256_S256x1)
    (broadcast S256x1 (Scalar.ofBits .f32 0x43000000#32))

/-- A slab normalised row by row, as the body computes it. -/
def normSlab (s : FVec Ideal S256x128 .f32) : FVec Ideal S256x128 .f32 :=
  mulf (subf s (broadcastTo S256x128 (meanCol s) broadcasts_S256x1_S256x128))
    (broadcastTo S256x128 (rsqrt (addf (subf (meanCol (mulf s s)) (mulf (meanCol s) (meanCol s)))
      (broadcast S256x1 (Scalar.ofBits .f32 0x3727C5AC#32)))) broadcasts_S256x1_S256x128)

/-- The mean column at row `p` is the specification's mean of that row of the slab. -/
theorem meanCol_apply (s : FVec Ideal S256x128 .f32) (p : Fin 256) :
    meanCol s (ix2 p (0 : Fin 1)) = Ideal.div (∑ j : Fin 128, s (ix2 p j)) c128 := by
  unfold meanCol
  refine (divf_apply _ _ _).trans ?_
  refine congrArg₂ Ideal.div ?_ rfl
  refine (Cert.LibRank3Layout.shapeCast_a_a1_apply _ _ p (0 : Fin 1)).trans ?_
  exact Cert.LibRank3Layout.multiReduction_add_last2 s _ _ _ p

/-- Entry `(p, j)` of the normalised slab is the specification's normalised entry `j` of row `p`. -/
theorem normSlab_apply (s : FVec Ideal S256x128 .f32) (p : Fin 256) (j : Fin 128) :
    normSlab s (ix2 p j) = normed (fun j' => s (ix2 p j')) j := by
  unfold normSlab normed rstd mean meanSq
  refine (mulf_apply _ _ _).trans ?_
  refine congrArg₂ (· * ·) ?_ ?_
  · refine (subf_apply _ _ _).trans ?_
    refine congrArg₂ (· - ·) rfl ?_
    refine (Cert.LibRank3Layout.broadcastTo_a1_ab_apply _ _ p j).trans ?_
    exact meanCol_apply s p
  · refine (Cert.LibRank3Layout.broadcastTo_a1_ab_apply _ _ p j).trans ?_
    show Ideal.rsqrt ((meanCol (mulf s s) (ix2 p (0 : Fin 1)) - meanCol s (ix2 p (0 : Fin 1)) * meanCol s (ix2 p (0 : Fin 1))) + ceps) = _
    rw [meanCol_apply s p, meanCol_apply (mulf s s) p]
    rfl

/-! ## The four slabs side by side -/

/-- Slab `n` of a 512-column tile, normalised: columns `128 n … 128 n + 127`. -/
def slabOf (H : FVec Ideal S256x512 .f32) : Fin 4 → FVec Ideal S256x128 .f32 := fun n => match n with
  | ⟨0, _⟩ => normSlab (extractStridedSlice S256x128 ![0, 0] H slices_S256x512_o0_0_S256x128)
  | ⟨1, _⟩ => normSlab (extractStridedSlice S256x128 ![0, 128] H slices_S256x512_o0_128_S256x128)
  | ⟨2, _⟩ => normSlab (extractStridedSlice S256x128 ![0, 256] H slices_S256x512_o0_256_S256x128)
  | ⟨3, _⟩ => normSlab (extractStridedSlice S256x128 ![0, 384] H slices_S256x512_o0_384_S256x128)

/-- Column `j` of slab `n` in the tile. -/
def tcol (n : Fin 4) (j : Fin 128) : Fin 512 := ⟨n.val * 128 + j.val, by omega⟩

/-- Entry `(p, j)` of normalised slab `n`: the specification's normalised entry `j` of the row slab of `H`. -/
theorem slabOf_apply (H : FVec Ideal S256x512 .f32) (n : Fin 4) (p : Fin 256) (j : Fin 128) :
    slabOf H n (ix2 p j) = normed (fun j' => H (ix2 p (tcol n j'))) j := by
  match n with
  | ⟨0, _⟩ =>
    refine (normSlab_apply _ p j).trans (congrArg (fun s => normed s j) (funext fun j' => ?_))
    exact slice2_axis1_apply 0 H _ p j' (tcol ⟨0, by omega⟩ j') (by show 0 * 128 + j'.val = 0 + j'.val; omega)
  | ⟨1, _⟩ =>
    refine (normSlab_apply _ p j).trans (congrArg (fun s => normed s j) (funext fun j' => ?_))
    exact slice2_axis1_apply 128 H _ p j' (tcol ⟨1, by omega⟩ j') (by show 1 * 128 + j'.val = 128 + j'.val; omega)
  | ⟨2, _⟩ =>
    refine (normSlab_apply _ p j).trans (congrArg (fun s => normed s j) (funext fun j' => ?_))
    exact slice2_axis1_apply 256 H _ p j' (tcol ⟨2, by omega⟩ j') (by show 2 * 128 + j'.val = 256 + j'.val; omega)
  | ⟨3, _⟩ =>
    refine (normSlab_apply _ p j).trans (congrArg (fun s => normed s j) (funext fun j' => ?_))
    exact slice2_axis1_apply 384 H _ p j' (tcol ⟨3, by omega⟩ j') (by show 3 * 128 + j'.val = 384 + j'.val; omega)

/-- Four slabs of 128 columns laid side by side read, at column `128 n + j`, slab `n` at column `j`. -/
theorem cat4_apply (f : Fin 4 → FVec Ideal S256x128 .f32)
    (h : Shape.Concatenates ((List.ofFn fun n : Fin 4 => (⟨S256x128, f n⟩ : (s : Shape) × (s.Idx → Ideal .f32))).map (·.1)) S256x512 1)
    (p : Fin 256) (n : Fin 4) (j : Fin 128) :
    concatenate S256x512 1 (List.ofFn fun n : Fin 4 => (⟨S256x128, f n⟩ : (s : Shape) × (s.Idx → Ideal .f32))) h (ix2 p (tcol n j)) = f n (ix2 p j) :=
  concatenate_ofFn_apply (t := S256x512) (s₁ := S256x128) (1 : Fin 2) f h rfl 128 rfl (ix2 p (tcol n j)) n
    (by show (n.val * 128 + j.val) / 128 = n.val; omega) (ix2 p j)
    (by show j.val = (n.val * 128 + j.val) % 128; omega)
    (fun b hb => by match b with | ⟨0, _⟩ => rfl | ⟨1, _⟩ => exact absurd rfl hb)

/-- The body's normalised tile is the four normalised slabs of the affine tile side by side. -/
theorem pay8_eq (X : Vec Ideal S256x4096 .f32) (W : Vec Ideal S512x4096 .f32) (B : Vec Ideal S1x512 .f32) :
    k0_pay8 (F := Ideal) (k0_pay2 X W B) (k0_pay3 X W B) (k0_pay4 X W B) (k0_pay6 X W B) (k0_pay7 X W B)
      = concatenate S256x512 1 (List.ofFn fun n : Fin 4 => (⟨S256x128, slabOf (k0_pay2 (F := Ideal) X W B) n⟩ : (s : Shape) × (s.Idx → Ideal .f32)))
          concatenates_S256x128_S256x128_S256x128_S256x128_S256x512_d1 := rfl

/-- Entry `(p, 128 n + j)` of the normalised tile. -/
theorem pay8_apply (X : Vec Ideal S256x4096 .f32) (W : Vec Ideal S512x4096 .f32) (B : Vec Ideal S1x512 .f32)
    (p : Fin 256) (n : Fin 4) (j : Fin 128) :
    k0_pay8 (F := Ideal) (k0_pay2 X W B) (k0_pay3 X W B) (k0_pay4 X W B) (k0_pay6 X W B) (k0_pay7 X W B) (ix2 p (tcol n j))
      = normed (fun j' => tlin X W B p (tcol n j')) j := by
  rw [pay8_eq]
  refine (cat4_apply _ _ p n j).trans ?_
  refine (slabOf_apply _ n p j).trans ?_
  exact congrArg (fun s => normed s j) (funext fun j' => pay2_apply X W B p (tcol n j'))

/-! ## Scale, shift, swish, scale, swish -/

/-- Entry `(p, q)` of the stored tile from the normalised tile `N` and the three one-row blocks. -/
theorem pay1_apply (N : FVec Ideal S256x512 .f32) (GW GB MW : Vec Ideal S1x512 .f32) (p : Fin 256) (q : Fin 512) :
    k0_pay1 (F := Ideal) N (k0_pay9 GW) GB MW (ix2 p q)
      = act (N (ix2 p q)) (GW (ix2 (0 : Fin 1) q)) (GB (ix2 (0 : Fin 1) q)) (MW (ix2 (0 : Fin 1) q)) := by
  have eGW : broadcastTo S256x512 (k0_pay9 (F := Ideal) GW) broadcasts_S1x512_S256x512 (ix2 p q) = GW (ix2 (0 : Fin 1) q) := by
    refine (broadcastTo_1b_ab_apply _ _ p q).trans ?_
    unfold k0_pay9
    exact congrFun (shapeCast_self _ _) _
  have eGB : broadcastTo S256x512 (shapeCast S1x512 GB shapeCasts_S1x512_S1x512) broadcasts_S1x512_S256x512 (ix2 p q) = GB (ix2 (0 : Fin 1) q) := by
    refine (broadcastTo_1b_ab_apply _ _ p q).trans ?_
    exact congrFun (shapeCast_self _ _) _
  have eMW : broadcastTo S256x512 (shapeCast S1x512 MW shapeCasts_S1x512_S1x512) broadcasts_S1x512_S256x512 (ix2 p q) = MW (ix2 (0 : Fin 1) q) := by
    refine (broadcastTo_1b_ab_apply _ _ p q).trans ?_
    exact congrFun (shapeCast_self _ _) _
  unfold k0_pay1 act swish
  show (((N (ix2 p q) * broadcastTo S256x512 (k0_pay9 (F := Ideal) GW) broadcasts_S1x512_S256x512 (ix2 p q)
        + broadcastTo S256x512 (shapeCast S1x512 GB shapeCasts_S1x512_S1x512) broadcasts_S1x512_S256x512 (ix2 p q))
      * Ideal.logistic (N (ix2 p q) * broadcastTo S256x512 (k0_pay9 (F := Ideal) GW) broadcasts_S1x512_S256x512 (ix2 p q)
        + broadcastTo S256x512 (shapeCast S1x512 GB shapeCasts_S1x512_S1x512) broadcasts_S1x512_S256x512 (ix2 p q)))
      * broadcastTo S256x512 (shapeCast S1x512 MW shapeCasts_S1x512_S1x512) broadcasts_S1x512_S256x512 (ix2 p q))
    * Ideal.logistic ((((N (ix2 p q) * broadcastTo S256x512 (k0_pay9 (F := Ideal) GW) broadcasts_S1x512_S256x512 (ix2 p q)
        + broadcastTo S256x512 (shapeCast S1x512 GB shapeCasts_S1x512_S1x512) broadcasts_S1x512_S256x512 (ix2 p q))
      * Ideal.logistic (N (ix2 p q) * broadcastTo S256x512 (k0_pay9 (F := Ideal) GW) broadcasts_S1x512_S256x512 (ix2 p q)
        + broadcastTo S256x512 (shapeCast S1x512 GB shapeCasts_S1x512_S1x512) broadcasts_S1x512_S256x512 (ix2 p q)))
      * broadcastTo S256x512 (shapeCast S1x512 MW shapeCasts_S1x512_S1x512) broadcasts_S1x512_S256x512 (ix2 p q))) = _
  rw [eGW, eGB, eMW]

/-- THE TILE: entry `(p, 128 n + j)` of what the body stores, from the six blocks it loads. -/
theorem tile_apply (X : Vec Ideal S256x4096 .f32) (W : Vec Ideal S512x4096 .f32) (B GW GB MW : Vec Ideal S1x512 .f32)
    (p : Fin 256) (n : Fin 4) (j : Fin 128) :
    k0_pay1 (F := Ideal) (k0_pay8 (k0_pay2 X W B) (k0_pay3 X W B) (k0_pay4 X W B) (k0_pay6 X W B) (k0_pay7 X W B)) (k0_pay9 GW) GB MW (ix2 p (tcol n j))
      = act (normed (fun j' => tlin X W B p (tcol n j')) j) (GW (ix2 (0 : Fin 1) (tcol n j))) (GB (ix2 (0 : Fin 1) (tcol n j))) (MW (ix2 (0 : Fin 1) (tcol n j))) := by
  refine (pay1_apply _ GW GB MW p (tcol n j)).trans ?_
  rw [pay8_apply X W B p n j]

end Cert.KernelTile

end
-- ==== Proof.KernelArray.lean ====
/-
  From tiles to the whole array.

  The grid has 8 × 32 points; the point with coordinates `(jt, it)` loads rows `256 it … 256 it + 255` of the input, rows
  `512 jt … 512 jt + 511` of the weight and columns `512 jt … 512 jt + 511` of the four channel vectors (each laid out as
  one row before the launch), and writes back the tile at rows `256 it …`, columns `512 jt …` of the result.  A tile
  spans four whole groups of 128 channels, so the tile's entry `(p, q)` is the specification's `G` at
  `(256 it + p, 512 jt + q)`; the tiles cover the result array, so the array ends equal to `G` of the arguments.
-/
import proofs.«129358_j58128087384630_1_alg».proof.Proof.Gen.KernelIdeal.Value
import proofs.«129358_j58128087384630_1_alg».proof.Proof.KernelTile
import Idealize.ShloMosaic.Lib.StableHlo.Run

set_option maxRecDepth 16384

noncomputable section

namespace Cert.KernelArray

open Cert.KernelIdeal Cert.KernelIdeal.Gen Idealize.ShloMosaic Idealize.ShloMosaic.TcCoe Idealize.SL.Sem
open Idealize.ShloMosaic.ValueIdx Idealize.ShloMosaic.StableHlo Cert.MlpSpec Cert.KernelTile
open Idealize.ShloMosaic.Pipeline (Dat)

/-! ## A tile of the kernel is a tile of the specification -/

/-- If the six loaded blocks are the rows `R` of the input, the rows `C` of the weight and the columns `C` of the four
    channel vectors, where `C` is 512 consecutive channels starting at a multiple of 512, then entry `(p, q)` of the stored
    tile is `G` at `(R p, C q)`: the group of channel `C q` lies inside the tile, so the slab the kernel normalises over is
    the group the specification normalises over. -/
theorem tile_is_G (x : FVec Ideal S8192x4096 .f32) (w : FVec Ideal S4096x4096 .f32) (b gw gb mw : FVec Ideal S4096 .f32)
    (X : Vec Ideal S256x4096 .f32) (W : Vec Ideal S512x4096 .f32) (B GW GB MW : Vec Ideal S1x512 .f32)
    (R : Fin 256 → Fin 8192) (C : Fin 512 → Fin 4096) (jt : ℕ) (hC : ∀ q : Fin 512, (C q).val = jt * 512 + q.val)
    (hX : ∀ (p : Fin 256) (k : Fin 4096), X (ix2 p k) = x (ix2 (R p) k))
    (hW : ∀ (q : Fin 512) (k : Fin 4096), W (ix2 q k) = w (ix2 (C q) k))
    (hB : ∀ q : Fin 512, B (ix2 (0 : Fin 1) q) = b (ix1 (C q)))
    (hGW : ∀ q : Fin 512, GW (ix2 (0 : Fin 1) q) = gw (ix1 (C q)))
    (hGB : ∀ q : Fin 512, GB (ix2 (0 : Fin 1) q) = gb (ix1 (C q)))
    (hMW : ∀ q : Fin 512, MW (ix2 (0 : Fin 1) q) = mw (ix1 (C q)))
    (p : Fin 256) (q : Fin 512) :
    k0_pay1 (F := Ideal) (k0_pay8 (k0_pay2 X W B) (k0_pay3 X W B) (k0_pay4 X W B) (k0_pay6 X W B) (k0_pay7 X W B)) (k0_pay9 GW) GB MW (ix2 p q)
      = G x w b gw gb mw (ix2 (R p) (C q)) := by
  obtain ⟨n, j, rfl⟩ : ∃ (n : Fin 4) (j : Fin 128), q = tcol n j :=
    ⟨⟨q.val / 128, by have := q.isLt; omega⟩, ⟨q.val % 128, by omega⟩,
      Fin.ext (by show q.val = q.val / 128 * 128 + q.val % 128; omega)⟩
  have hlin : ∀ q' : Fin 512, tlin X W B p q' = lin x w b (R p) (C q') := fun q' => by
    unfold tlin lin
    rw [hB q']
    exact congrArg (· + _) (Finset.sum_congr rfl fun k _ => by rw [hX p k, hW q' k])
  have hcol : ∀ j' : Fin 128, col (grp (C (tcol n j))) j' = C (tcol n j') := fun j' => Fin.ext (by
    show (C (tcol n j)).val / 128 * 128 + j'.val = (C (tcol n j')).val
    rw [hC, hC]
    show (jt * 512 + (n.val * 128 + j.val)) / 128 * 128 + j'.val = jt * 512 + (n.val * 128 + j'.val)
    omega)
  have hsub : sub (C (tcol n j)) = j := Fin.ext (by
    show (C (tcol n j)).val % 128 = j.val
    rw [hC]
    show (jt * 512 + (n.val * 128 + j.val)) % 128 = j.val
    omega)
  have hfun : (fun j' => lin x w b (R p) (col (grp (C (tcol n j))) j')) = (fun j' => tlin X W B p (tcol n j')) :=
    funext fun j' => by rw [hcol j', hlin]
  rw [tile_apply X W B GW GB MW p n j, G_ix2]
  unfold Gat
  rw [col_grp_sub, hsub, hfun, hGW, hGB, hMW]

variable (m : (ℓ : Loc nD τ sig) → Buf (Elt Ideal) ℓ) (ρ : Dev nD → PrngReg)

/-! ## The channel vectors as the region finds them: each laid out as one row -/

theorem V_main_v0 (c : Dev nD) :
    (V m c main_v0 : S1x4096.Idx → EReal) = shapeCast S1x4096 (m ((c : Thread nD τ).loc main_arg2)) shapeCasts_S4096_S1x4096 := by
  dsimp only [Gen.V, Gen.hostOps0]
  after_results
  rfl

theorem V_main_v1 (c : Dev nD) :
    (V m c main_v1 : S1x4096.Idx → EReal) = shapeCast S1x4096 (m ((c : Thread nD τ).loc main_arg3)) shapeCasts_S4096_S1x4096 := by
  dsimp only [Gen.V, Gen.hostOps0]
  after_results
  rfl

theorem V_main_v2 (c : Dev nD) :
    (V m c main_v2 : S1x4096.Idx → EReal) = shapeCast S1x4096 (m ((c : Thread nD τ).loc main_arg4)) shapeCasts_S4096_S1x4096 := by
  dsimp only [Gen.V, Gen.hostOps0]
  after_results
  rfl

theorem V_main_v3 (c : Dev nD) :
    (V m c main_v3 : S1x4096.Idx → EReal) = shapeCast S1x4096 (m ((c : Thread nD τ).loc main_arg5)) shapeCasts_S4096_S1x4096 := by
  dsimp only [Gen.V, Gen.hostOps0]
  after_results
  rfl

/-! ## The grid's index maps -/

theorem hz : (![0, 0] : Fin 2 → Nat) = fun _ => 0 := funext fun a => by fin_cases a <;> rfl

/-- The input windows' block indices in terms of the output window's, decided over the 256 points: the row block of
    the input is the output's row block, the weight's row block and the channel vectors' column block are the output's
    column block, and the remaining block indices are zero. -/
theorem idx_facts : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = 0 ∧ win0_2.index t (1 : Fin 2) = win0_6.index t (1 : Fin 2)
    ∧ win0_3.index t (0 : Fin 2) = 0 ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2)
    ∧ win0_6.index t (0 : Fin 2) = t.val % 32 ∧ win0_6.index t (1 : Fin 2) = t.val / 32 :=
  (by decide +kernel : ∀ t : Fin grid0.N, _)

/-! ## What a point writes back -/

/-- Point `t` writes back tile `t` of `G` of the argument arrays. -/
theorem flushed_eq (c : Dev nD) (t : Fin cfg0.N) :
    (dats m 0 c).flushed 6 t = ((cfg0.win 6).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Cert.KernelIdeal.Value.flushed6]
  unfold out0_6
  rw [View.canon_unit_zero hz]
  simp only [View.ld_unit_zero (S := S256x4096) hz, View.ld_unit_zero (S := S512x4096) hz, View.ld_unit_zero (S := S1x512) hz]
  obtain ⟨e00, e01, e10, e11, e20, e21, e30, e31, e40, e41, e50, e51, b0, b1⟩ := idx_facts t
  have ht : t.val < 256 := lt_of_lt_of_eq t.isLt N_0
  let R : Fin 256 → Fin 8192 := fun p => ⟨win0_6.index t (0 : Fin 2) * 256 + p.val, by have := p.isLt; omega⟩
  let C : Fin 512 → Fin 4096 := fun q => ⟨win0_6.index t (1 : Fin 2) * 512 + q.val, by have := q.isLt; omega⟩
  have hX : ∀ (p : Fin 256) (k : Fin 4096), (iblk m c 0 t : Vec Ideal S256x4096 .f32) (ix2 p k) = (m ((c : Thread nD τ).loc main_arg0)) (ix2 (R p) k) := fun p k => by
    show V m c main_arg0 (((cfg0.win 0).blk t).view.emb (ix2 p k)) = _
    rw [V_main_arg0 m c]
    refine congrArg _ (funext fun a => Fin.ext ?_)
    match a with
    | ⟨0, _⟩ => show win0_0.index t (0 : Fin 2) * 256 + 1 * p.val = win0_6.index t (0 : Fin 2) * 256 + p.val; omega
    | ⟨1, _⟩ => show win0_0.index t (1 : Fin 2) * 4096 + 1 * k.val = k.val; omega
  have hW : ∀ (q : Fin 512) (k : Fin 4096), (iblk m c 1 t : Vec Ideal S512x4096 .f32) (ix2 q k) = (m ((c : Thread nD τ).loc main_arg1)) (ix2 (C q) k) := fun q k => by
    show V m c main_arg1 (((cfg0.win 1).blk t).view.emb (ix2 q k)) = _
    rw [V_main_arg1 m c]
    refine congrArg _ (funext fun a => Fin.ext ?_)
    match a with
    | ⟨0, _⟩ => show win0_1.index t (0 : Fin 2) * 512 + 1 * q.val = win0_6.index t (1 : Fin 2) * 512 + q.val; omega
    | ⟨1, _⟩ => show win0_1.index t (1 : Fin 2) * 4096 + 1 * k.val = k.val; omega
  have hB : ∀ q : Fin 512, (iblk m c 2 t : Vec Ideal S1x512 .f32) (ix2 (0 : Fin 1) q) = (m ((c : Thread nD τ).loc main_arg2)) (ix1 (C q)) := fun q => by
    show V m c main_v0 (((cfg0.win 2).blk t).view.emb (ix2 (0 : Fin 1) q)) = _
    rw [V_main_v0 m c]
    refine Eq.trans (congrArg _ (?_ : _ = ix2 (0 : Fin 1) (C q))) (shapeCast_a_1a_apply _ _ (0 : Fin 1) (C q))
    funext a; apply Fin.ext
    match a with
    | ⟨0, _⟩ => show win0_2.index t (0 : Fin 2) * 1 + 1 * 0 = 0; omega
    | ⟨1, _⟩ => show win0_2.index t (1 : Fin 2) * 512 + 1 * q.val = win0_6.index t (1 : Fin 2) * 512 + q.val; omega
  have hGW : ∀ q : Fin 512, (iblk m c 3 t : Vec Ideal S1x512 .f32) (ix2 (0 : Fin 1) q) = (m ((c : Thread nD τ).loc main_arg3)) (ix1 (C q)) := fun q => by
    show V m c main_v1 (((cfg0.win 3).blk t).view.emb (ix2 (0 : Fin 1) q)) = _
    rw [V_main_v1 m c]
    refine Eq.trans (congrArg _ (?_ : _ = ix2 (0 : Fin 1) (C q))) (shapeCast_a_1a_apply _ _ (0 : Fin 1) (C q))
    funext a; apply Fin.ext
    match a with
    | ⟨0, _⟩ => show win0_3.index t (0 : Fin 2) * 1 + 1 * 0 = 0; omega
    | ⟨1, _⟩ => show win0_3.index t (1 : Fin 2) * 512 + 1 * q.val = win0_6.index t (1 : Fin 2) * 512 + q.val; omega
  have hGB : ∀ q : Fin 512, (iblk m c 4 t : Vec Ideal S1x512 .f32) (ix2 (0 : Fin 1) q) = (m ((c : Thread nD τ).loc main_arg4)) (ix1 (C q)) := fun q => by
    show V m c main_v2 (((cfg0.win 4).blk t).view.emb (ix2 (0 : Fin 1) q)) = _
    rw [V_main_v2 m c]
    refine Eq.trans (congrArg _ (?_ : _ = ix2 (0 : Fin 1) (C q))) (shapeCast_a_1a_apply _ _ (0 : Fin 1) (C q))
    funext a; apply Fin.ext
    match a with
    | ⟨0, _⟩ => show win0_4.index t (0 : Fin 2) * 1 + 1 * 0 = 0; omega
    | ⟨1, _⟩ => show win0_4.index t (1 : Fin 2) * 512 + 1 * q.val = win0_6.index t (1 : Fin 2) * 512 + q.val; omega
  have hMW : ∀ q : Fin 512, (iblk m c 5 t : Vec Ideal S1x512 .f32) (ix2 (0 : Fin 1) q) = (m ((c : Thread nD τ).loc main_arg5)) (ix1 (C q)) := fun q => by
    show V m c main_v3 (((cfg0.win 5).blk t).view.emb (ix2 (0 : Fin 1) q)) = _
    rw [V_main_v3 m c]
    refine Eq.trans (congrArg _ (?_ : _ = ix2 (0 : Fin 1) (C q))) (shapeCast_a_1a_apply _ _ (0 : Fin 1) (C q))
    funext a; apply Fin.ext
    match a with
    | ⟨0, _⟩ => show win0_5.index t (0 : Fin 2) * 1 + 1 * 0 = 0; omega
    | ⟨1, _⟩ => show win0_5.index t (1 : Fin 2) * 512 + 1 * q.val = win0_6.index t (1 : Fin 2) * 512 + q.val; omega
  funext y
  have hy0 : (y 0).val < 256 := (y 0).isLt
  have hy1 : (y 1).val < 512 := (y 1).isLt
  show k0_pay1 (F := Ideal) (k0_pay8 (k0_pay2 (iblk m c 0 t) (iblk m c 1 t) (iblk m c 2 t)) (k0_pay3 (iblk m c 0 t) (iblk m c 1 t) (iblk m c 2 t)) (k0_pay4 (iblk m c 0 t) (iblk m c 1 t) (iblk m c 2 t)) (k0_pay6 (iblk m c 0 t) (iblk m c 1 t) (iblk m c 2 t)) (k0_pay7 (iblk m c 0 t) (iblk m c 1 t) (iblk m c 2 t))) (k0_pay9 (iblk m c 3 t)) (iblk m c 4 t) (iblk m c 5 t) ((cfg0.win 6).xinj (grid0.coords t) y)
    = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (((cfg0.win 6).blk t).view.emb y)
  have hyi : (cfg0.win 6).xinj (grid0.coords t) y = ix2 (⟨(y 0).val, hy0⟩ : Fin 256) (⟨(y 1).val, hy1⟩ : Fin 512) :=
    funext fun a => Fin.ext (by match a with | ⟨0, _⟩ => rfl | ⟨1, _⟩ => rfl)
  have hemb : ((cfg0.win 6).blk t).view.emb y = ix2 (R ⟨(y 0).val, hy0⟩) (C ⟨(y 1).val, hy1⟩) :=
    funext fun a => Fin.ext (by
      match a with
      | ⟨0, _⟩ => show win0_6.index t (0 : Fin 2) * 256 + 1 * (y 0).val = win0_6.index t (0 : Fin 2) * 256 + (y 0).val; omega
      | ⟨1, _⟩ => show win0_6.index t (1 : Fin 2) * 512 + 1 * (y 1).val = win0_6.index t (1 : Fin 2) * 512 + (y 1).val; omega)
  rw [hyi, hemb]
  exact tile_is_G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t) R C (win0_6.index t (1 : Fin 2)) (fun q => rfl)
    hX hW hB hGW hGB hMW ⟨(y 0).val, hy0⟩ ⟨(y 1).val, hy1⟩

/-! ## The tiles cover the result -/

/-- An index of the result is in point `t`'s tile iff each coordinate is in the tile's range on its axis. -/
theorem mem_blk (t : Fin cfg0.N) (i : S8192x4096.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v4).slice (win0_6.rect t)).set ↔ _
  rw [View.set_slice_whole, Rect.mem_set_unit]
  exact Iff.rfl

/-- Every index of the result lies in the tile of the point whose coordinates are its column over 512 and its row over 256. -/
theorem cover (i : S8192x4096.Idx) : ∃ t : Fin cfg0.N, (cfg0.win 6).flush t = true ∧ i ∈ ((cfg0.win 6).blk t).view.set := by
  have hi0 : (i 0).val < 8192 := (i 0).isLt
  have hi1 : (i 1).val < 4096 := (i 1).isLt
  have hN : cfg0.N = 256 := N_0
  let t : Fin cfg0.N := ⟨(i 1).val / 512 * 32 + (i 0).val / 256, by rw [hN]; omega⟩
  obtain ⟨-, -, -, -, -, -, -, -, -, -, -, -, b0, b1⟩ := idx_facts t
  have q0 : win0_6.index t (0 : Fin 2) = (i 0).val / 256 := by
    rw [b0]; show ((i 1).val / 512 * 32 + (i 0).val / 256) % 32 = (i 0).val / 256; omega
  have q1 : win0_6.index t (1 : Fin 2) = (i 1).val / 512 := by
    rw [b1]; show ((i 1).val / 512 * 32 + (i 0).val / 256) / 32 = (i 1).val / 512; omega
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 512 ≤ (i 1).val ∧ (i 1).val < win0_6.index t (1 : Fin 2) * 512 + 512; omega

/-- The result array after the run is `G` of the argument arrays. -/
theorem final (c : Dev nD) : (dats m 0 c).arrAt 6 cfg0.N = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (dats m 0 c).arrAt_eq_of_cover 6 _ (fun t _ => flushed_eq m c t) cover

/-- The kernel's run: it terminates with the result array at `G` of the arguments and the arguments unchanged. -/
theorem run : θ_run defs (onTc (τ := τ) (main (F := Ideal))) ⟨m, fun _ => 0, ρ⟩ fun r => ∀ c : Dev nD,
      r.2.mem ((c : Thread nD τ).loc main_v4) = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelArray

end
-- ==== Proof.RefIsSpec.lean ====
/-
  The reference program's last stage is the specification's function `G`, index by index.

  The reference computes, for row `r` and channel `c`: the affine value `(∑ k, x (r, k) * w (c, k)) + b c`; a reshape
  of each row into 32 groups of 128 consecutive channels, so that entry `j` of group `g` is channel `128 g + j`; the
  group's sum and sum of squares (each started from the zero word, which denotes `0`), divided by the word for 128;
  the entry minus the mean, times `rsqrt (E[s²] - E[s]² + ε)`; the reshape back, under which channel `c` is entry
  `c % 128` of group `c / 128`; then per channel a scale and a shift, `y * (1 / (1 + exp (-y)))`, a second scale and the
  same map again. The word `0x3F800000` denotes `1`, and `1 / (1 + exp (-y))` is `logistic y` by definition.

  Each stage is read at an index built from its coordinates; the only arithmetic is `0 + s = s` and the division
  and remainder identities of the two reshapes.
-/
import proofs.«129358_j58128087384630_1_alg».proof.Proof.Gen.ReferenceIdeal.Read
import proofs.«129358_j58128087384630_1_alg».proof.Proof.Spec
import Idealize.ShloMosaic.Lib.ValueIdx
import Idealize.ShloMosaic.PureOps.IdealRules
import Idealize.ShloMosaic.PureOps.Ideal.Laws

noncomputable section

namespace Cert.RefIsSpec

open Cert.ReferenceIdeal Cert.ReferenceIdeal.Read Cert.MlpSpec Idealize.ShloMosaic Idealize.ShloMosaic.ValueIdx

/-- The affine values of one group of one row, as a slab of 128 entries. -/
def slab (x0 : FVec Ideal S8192x4096 .f32) (x1 : FVec Ideal S4096x4096 .f32) (x2 : FVec Ideal S4096 .f32)
    (r : Fin 8192) (g : Fin 32) : Fin 128 → EReal :=
  fun j => lin x0 x1 x2 r (col g j)

/-- Stage 1: the contraction over `k` plus the bias, read at row `r`, channel `c`. -/
theorem v3_at (x0 : FVec Ideal S8192x4096 .f32) (x1 : FVec Ideal S4096x4096 .f32) (x2 : FVec Ideal S4096 .f32)
    (r : Fin 8192) (c : Fin 4096) :
    val_main_v3 (F := Ideal) x0 x1 x2 (ix2 r c) = lin x0 x1 x2 r c := by
  have hl : ∀ k : Fin 4096, lidx_main_v0 (ix2 r c) k = ix2 r k := fun k =>
    funext fun a => Fin.ext (by match a with | ⟨0, _⟩ => rfl | ⟨1, _⟩ => rfl)
  have hr : ∀ k : Fin 4096, ridx_main_v0 (ix2 r c) k = ix2 c k := fun k =>
    funext fun a => Fin.ext (by match a with | ⟨0, _⟩ => rfl | ⟨1, _⟩ => rfl)
  have hb : idx_main_v1 (idx_main_v2 (ix2 r c)) = ix1 c :=
    funext fun a => Fin.ext (by match a with | ⟨0, _⟩ => rfl)
  rw [val_main_v3_apply, val_main_v0_apply, val_main_v2_apply, val_main_v1_apply, hb]
  show (∑ k : Fin 4096, x0 (lidx_main_v0 (ix2 r c) k) * x1 (ridx_main_v0 (ix2 r c) k)) + x2 (ix1 c) = _
  unfold lin
  exact congrArg (· + x2 (ix1 c)) (Finset.sum_congr rfl fun k _ => by rw [hl, hr])

/-- Stage 2: the reshape into groups reads the affine value at channel `128 g + j`. -/
theorem v4_at (x0 : FVec Ideal S8192x4096 .f32) (x1 : FVec Ideal S4096x4096 .f32) (x2 : FVec Ideal S4096 .f32)
    (r : Fin 8192) (g : Fin 32) (j : Fin 128) :
    val_main_v4 (F := Ideal) x0 x1 x2 (ix3 r g j) = slab x0 x1 x2 r g j := by
  have hi : idx_main_v4 (ix3 r g j) = ix2 r (col g j) :=
    funext fun a => Fin.ext (by
      have hr := r.isLt; have hg := g.isLt; have hj := j.isLt
      match a with
      | ⟨0, _⟩ => show ((r.val * 32 + g.val) * 128 + j.val) / 4096 = r.val; omega
      | ⟨1, _⟩ => show ((r.val * 32 + g.val) * 128 + j.val) % 4096 = g.val * 128 + j.val; omega)
  rw [val_main_v4_apply, hi, v3_at]
  rfl

/-- The sum over a group: the reduction's initial word is the zero word. -/
theorem v5_at (x0 : FVec Ideal S8192x4096 .f32) (x1 : FVec Ideal S4096x4096 .f32) (x2 : FVec Ideal S4096 .f32)
    (r : Fin 8192) (g : Fin 32) :
    val_main_v5 (F := Ideal) x0 x1 x2 (ix2 r g) = ∑ j : Fin 128, slab x0 x1 x2 r g j := by
  have hi : ∀ k : Fin 128, idx_main_v5 (ix2 r g) k = ix3 r g k := fun k =>
    funext fun a => Fin.ext (by match a with | ⟨0, _⟩ => rfl | ⟨1, _⟩ => rfl | ⟨2, _⟩ => rfl)
  rw [val_main_v5_apply, val_main_cst_apply]
  show Ideal.ofBits .f32 0x00000000#32 + _ = _
  rw [Ideal.ofBits_zero_f32, zero_add]
  exact Finset.sum_congr rfl fun k _ => by rw [hi, v4_at]

/-- Stage 3a: the group's mean, at the group's one kept entry. -/
theorem v8_at (x0 : FVec Ideal S8192x4096 .f32) (x1 : FVec Ideal S4096x4096 .f32) (x2 : FVec Ideal S4096 .f32)
    (r : Fin 8192) (g : Fin 32) (z : Fin 1) :
    val_main_v8 (F := Ideal) x0 x1 x2 (ix3 r g z) = mean (slab x0 x1 x2 r g) := by
  have hi : idx_main_v6 (ix3 r g z) = ix2 r g :=
    funext fun a => Fin.ext (by match a with | ⟨0, _⟩ => rfl | ⟨1, _⟩ => rfl)
  rw [val_main_v8_apply, val_main_v6_apply, hi, v5_at, val_main_v7_apply, val_main_cst_0_apply]
  rfl

/-- The sum of the squares over a group. -/
theorem v10_at (x0 : FVec Ideal S8192x4096 .f32) (x1 : FVec Ideal S4096x4096 .f32) (x2 : FVec Ideal S4096 .f32)
    (r : Fin 8192) (g : Fin 32) :
    val_main_v10 (F := Ideal) x0 x1 x2 (ix2 r g) = ∑ j : Fin 128, slab x0 x1 x2 r g j * slab x0 x1 x2 r g j := by
  have hi : ∀ k : Fin 128, idx_main_v10 (ix2 r g) k = ix3 r g k := fun k =>
    funext fun a => Fin.ext (by match a with | ⟨0, _⟩ => rfl | ⟨1, _⟩ => rfl | ⟨2, _⟩ => rfl)
  rw [val_main_v10_apply, val_main_cst_1_apply]
  show Ideal.ofBits .f32 0x00000000#32 + _ = _
  rw [Ideal.ofBits_zero_f32, zero_add]
  exact Finset.sum_congr rfl fun k _ => by rw [hi, val_main_v9_apply, v4_at]; rfl

/-- Stage 3b: the group's mean of squares. -/
theorem v13_at (x0 : FVec Ideal S8192x4096 .f32) (x1 : FVec Ideal S4096x4096 .f32) (x2 : FVec Ideal S4096 .f32)
    (r : Fin 8192) (g : Fin 32) (z : Fin 1) :
    val_main_v13 (F := Ideal) x0 x1 x2 (ix3 r g z) = meanSq (slab x0 x1 x2 r g) := by
  have hi : idx_main_v11 (ix3 r g z) = ix2 r g :=
    funext fun a => Fin.ext (by match a with | ⟨0, _⟩ => rfl | ⟨1, _⟩ => rfl)
  rw [val_main_v13_apply, val_main_v11_apply, hi, v10_at, val_main_v12_apply, val_main_cst_2_apply]
  rfl

/-- The group's reciprocal standard deviation. -/
theorem v20_at (x0 : FVec Ideal S8192x4096 .f32) (x1 : FVec Ideal S4096x4096 .f32) (x2 : FVec Ideal S4096 .f32)
    (r : Fin 8192) (g : Fin 32) (z : Fin 1) :
    val_main_v20 (F := Ideal) x0 x1 x2 (ix3 r g z) = rstd (slab x0 x1 x2 r g) := by
  rw [val_main_v20_apply, val_main_v19_apply, val_main_v15_apply, v13_at,
    val_main_v14_apply, v8_at, val_main_v18_apply, val_main_cst_3_apply]
  rfl

/-- Stage 4: an entry of a group, normalised over the group. -/
theorem v22_at (x0 : FVec Ideal S8192x4096 .f32) (x1 : FVec Ideal S4096x4096 .f32) (x2 : FVec Ideal S4096 .f32)
    (r : Fin 8192) (g : Fin 32) (j : Fin 128) :
    val_main_v22 (F := Ideal) x0 x1 x2 (ix3 r g j) = normed (slab x0 x1 x2 r g) j := by
  have h16 : idx_main_v16 (ix3 r g j) = ix3 r g (0 : Fin 1) :=
    funext fun a => Fin.ext (by match a with | ⟨0, _⟩ => rfl | ⟨1, _⟩ => rfl | ⟨2, _⟩ => rfl)
  have h21 : idx_main_v21 (ix3 r g j) = ix3 r g (0 : Fin 1) :=
    funext fun a => Fin.ext (by match a with | ⟨0, _⟩ => rfl | ⟨1, _⟩ => rfl | ⟨2, _⟩ => rfl)
  rw [val_main_v22_apply, val_main_v17_apply, v4_at, val_main_v16_apply, h16, v8_at, val_main_v21_apply, h21, v20_at]
  rfl

/-- Stage 5: the reshape back to channels: channel `c` is entry `c % 128` of group `c / 128`. -/
theorem v23_at (x0 : FVec Ideal S8192x4096 .f32) (x1 : FVec Ideal S4096x4096 .f32) (x2 : FVec Ideal S4096 .f32)
    (r : Fin 8192) (c : Fin 4096) :
    val_main_v23 (F := Ideal) x0 x1 x2 (ix2 r c) = normed (slab x0 x1 x2 r (grp c)) (sub c) := by
  have hi : idx_main_v23 (ix2 r c) = ix3 r (grp c) (sub c) :=
    funext fun a => Fin.ext (by
      have hr := r.isLt; have hc := c.isLt
      match a with
      | ⟨0, _⟩ => show (r.val * 4096 + c.val) / 4096 = r.val; omega
      | ⟨1, _⟩ => show (r.val * 4096 + c.val) / 128 % 32 = c.val / 128; omega
      | ⟨2, _⟩ => show (r.val * 4096 + c.val) % 128 = c.val % 128; omega)
  rw [val_main_v23_apply, hi, v22_at]

/-- The word `0x3F800000` is the float one. -/
theorem one_word : Ideal.ofBits .f32 0x3F800000#32 = 1 :=
  IdealRules.sign_bit.ideal_onePat .f32

/-- `y * (1 / (1 + exp (-y)))`, with both ones the printed word, is `y * logistic y`. -/
theorem swish_word (y : EReal) :
    y * Ideal.div (Ideal.ofBits .f32 0x3F800000#32) (Ideal.ofBits .f32 0x3F800000#32 + Ideal.exp (-y)) = swish y := by
  rw [one_word]
  rfl

/-- A per-channel vector broadcast over the rows reads its entry at the channel. -/
theorem bcast_at (r : Fin 8192) (c : Fin 4096) :
    idx_main_v24 (idx_main_v25 (ix2 r c)) = ix1 c ∧ idx_main_v27 (idx_main_v28 (ix2 r c)) = ix1 c
      ∧ idx_main_v37 (idx_main_v38 (ix2 r c)) = ix1 c :=
  ⟨funext fun a => Fin.ext (by match a with | ⟨0, _⟩ => rfl),
   funext fun a => Fin.ext (by match a with | ⟨0, _⟩ => rfl),
   funext fun a => Fin.ext (by match a with | ⟨0, _⟩ => rfl)⟩

/-- Stage 6a: the per-channel scale and shift of the normalised value. -/
theorem v29_at (x0 : FVec Ideal S8192x4096 .f32) (x1 : FVec Ideal S4096x4096 .f32) (x2 x3 x4 : FVec Ideal S4096 .f32)
    (r : Fin 8192) (c : Fin 4096) :
    val_main_v29 (F := Ideal) x0 x1 x2 x3 x4 (ix2 r c)
      = normed (slab x0 x1 x2 r (grp c)) (sub c) * x3 (ix1 c) + x4 (ix1 c) := by
  rw [val_main_v29_apply, val_main_v26_apply, v23_at, val_main_v25_apply, val_main_v24_apply, (bcast_at r c).1,
    val_main_v28_apply, val_main_v27_apply, (bcast_at r c).2.1]
  rfl

/-- Stage 6b: the first `y * logistic y`. -/
theorem v36_at (x0 : FVec Ideal S8192x4096 .f32) (x1 : FVec Ideal S4096x4096 .f32) (x2 x3 x4 : FVec Ideal S4096 .f32)
    (r : Fin 8192) (c : Fin 4096) :
    val_main_v36 (F := Ideal) x0 x1 x2 x3 x4 (ix2 r c)
      = swish (normed (slab x0 x1 x2 r (grp c)) (sub c) * x3 (ix1 c) + x4 (ix1 c)) := by
  rw [val_main_v36_apply, val_main_v35_apply, val_main_v34_apply, val_main_cst_5_apply, val_main_v33_apply,
    val_main_v32_apply, val_main_cst_4_apply, val_main_v31_apply, val_main_v30_apply, v29_at]
  exact swish_word _

/-- Stage 6c: the second per-channel scale. -/
theorem v39_at (x0 : FVec Ideal S8192x4096 .f32) (x1 : FVec Ideal S4096x4096 .f32) (x2 x3 x4 x5 : FVec Ideal S4096 .f32)
    (r : Fin 8192) (c : Fin 4096) :
    val_main_v39 (F := Ideal) x0 x1 x2 x3 x4 x5 (ix2 r c)
      = swish (normed (slab x0 x1 x2 r (grp c)) (sub c) * x3 (ix1 c) + x4 (ix1 c)) * x5 (ix1 c) := by
  rw [val_main_v39_apply, v36_at, val_main_v38_apply, val_main_v37_apply, (bcast_at r c).2.2]
  rfl

/-- Stage 6d: the second `y * logistic y`: the whole per-entry map after the normalisation. -/
theorem v46_at (x0 : FVec Ideal S8192x4096 .f32) (x1 : FVec Ideal S4096x4096 .f32) (x2 x3 x4 x5 : FVec Ideal S4096 .f32)
    (r : Fin 8192) (c : Fin 4096) :
    val_main_v46 (F := Ideal) x0 x1 x2 x3 x4 x5 (ix2 r c)
      = act (normed (slab x0 x1 x2 r (grp c)) (sub c)) (x3 (ix1 c)) (x4 (ix1 c)) (x5 (ix1 c)) := by
  rw [val_main_v46_apply, val_main_v45_apply, val_main_v44_apply, val_main_cst_7_apply, val_main_v43_apply,
    val_main_v42_apply, val_main_cst_6_apply, val_main_v41_apply, val_main_v40_apply, v39_at]
  exact swish_word _

/-- The reference's last stage is the specification's function, index by index. -/
theorem ref_eq (x0 : FVec Ideal S8192x4096 .f32) (x1 : FVec Ideal S4096x4096 .f32) (x2 x3 x4 x5 : FVec Ideal S4096 .f32) :
    val_main_v46 (F := Ideal) x0 x1 x2 x3 x4 x5 = G x0 x1 x2 x3 x4 x5 := by
  funext i
  obtain ⟨r, c, rfl⟩ : ∃ (r : Fin 8192) (c : Fin 4096), i = ix2 r c := ⟨i 0, i 1, eq_ix2 i⟩
  rw [v46_at, G_ix2]
  unfold Gat
  rw [col_grp_sub]
  rfl

end Cert.RefIsSpec

end
-- ==== Proof.lean ====
/-
  Linear → GroupNorm (32 groups of 128 channels) → swish → per-channel scale → swish: a tiled kernel against the plain
  array program, equal over the extended reals.

  Both programs compute, for row `r` and channel `c = 128 g + j`, the value `G` of Proof/Spec.lean: the affine value
  `(∑ k, x (r, k) * w (c, k)) + b c`, normalised over its group by the mean and the mean of squares of the group's 128
  affine values (`(s j - μ) * rsqrt (ν - μ² + ε)`), then scaled, shifted, passed through `y ↦ y * logistic y`, scaled
  again and passed through the same map.  The two programs apply the same operations in the same order to the same
  numbers, so no law of arithmetic beyond `0 + s = s` (a sum started from the zero word) joins them, and the
  precondition on the inputs is never opened: what differs is only the arrangement — the kernel forms the affine values
  tile by tile with a matrix product against the transposed weight block and cuts each tile into four slabs of one group
  each, where the reference reshapes the whole activation matrix into groups; and the reference spells `logistic y` as
  `1 / (1 + exp (-y))`, which is its definition here.

  Proof/KernelTile.lean reads one stored tile entry by entry; Proof/KernelArray.lean places the tiles in the result array
  (they cover it) and states the kernel's run; Proof/RefIsSpec.lean reads the reference's stages down to `G`.  The frames
  of the two kernel programs are their generated frame certificates; the reference's frame is its run with the result
  dropped; the idealization rewrote nothing, so `preserves` holds trivially.
-/
import proofs.«129358_j58128087384630_1_alg».proof.Defs
import proofs.«129358_j58128087384630_1_alg».proof.Proof.Gen.Kernel
import proofs.«129358_j58128087384630_1_alg».proof.Proof.Gen.Kernel.Skeleton
import proofs.«129358_j58128087384630_1_alg».proof.Proof.Gen.Kernel.Launch
import proofs.«129358_j58128087384630_1_alg».proof.Proof.Gen.Kernel.Points
import proofs.«129358_j58128087384630_1_alg».proof.Proof.Gen.Kernel.Frame
import proofs.«129358_j58128087384630_1_alg».proof.Proof.Gen.KernelIdeal
import proofs.«129358_j58128087384630_1_alg».proof.Proof.Gen.KernelIdeal.Skeleton
import proofs.«129358_j58128087384630_1_alg».proof.Proof.Gen.KernelIdeal.Launch
import proofs.«129358_j58128087384630_1_alg».proof.Proof.Gen.KernelIdeal.Points
import proofs.«129358_j58128087384630_1_alg».proof.Proof.Gen.KernelIdeal.Frame
import proofs.«129358_j58128087384630_1_alg».proof.Proof.Gen.ReferenceIdeal
import proofs.«129358_j58128087384630_1_alg».proof.Proof.Gen.Pre_finite_inputs
import proofs.«129358_j58128087384630_1_alg».proof.Proof.Gen.KernelIdeal.Value
import proofs.«129358_j58128087384630_1_alg».proof.Proof.Gen.ReferenceIdeal.Run
import proofs.«129358_j58128087384630_1_alg».proof.Proof.Gen.ReferenceIdeal.Read
import proofs.«129358_j58128087384630_1_alg».proof.Proof.KernelArray
import proofs.«129358_j58128087384630_1_alg».proof.Proof.RefIsSpec
import Idealize.ShloMosaic.Adequacy
import Idealize.ShloMosaic.Init

noncomputable section

namespace Cert.Proof

open Idealize.ShloMosaic Idealize.SL.Sem

/-- The word-level kernel runs and keeps its arguments: its generated frame certificate. -/
theorem frame_k : Cert.frame_Kernel := fun m ρ _ => Cert.Kernel.Gen.frame m ρ

/-- The idealized kernel runs and keeps its arguments: its generated frame certificate. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel. -/
theorem preserves : Cert.preserves_Kernel_KernelIdeal := trivial

/-- From memories agreeing on the six arguments the kernel's result array ends at `G` of them (the tiles cover it) and the
    reference's at its last stage, which is `G` of the same arguments. -/
theorem algebraic : Cert.algebraic_KernelIdeal_ReferenceIdeal := by
  intro m ρ m' ρ' _ hagree
  refine ⟨fun c => Cert.MlpSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v46_eq, Cert.RefIsSpec.ref_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
